-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x4x32x32 : Shape := ⟨5, ![8, 256, 4, 32, 32]⟩
abbrev S2000x256 : Shape := ⟨2, ![2000, 256]⟩
abbrev S_ : Shape := ⟨0, ![]⟩

class Facts : Prop where
  bcast_S_S8x256x4x32x32 : S_.BroadcastsInDim S8x256x4x32x32 (![] : Fin 0 → Fin S8x256x4x32x32.rank)
  reducesTo_S8x256x4x32x32_S_d0_1_2_3_4 : S8x256x4x32x32.ReducesTo [0, 1, 2, 3, 4] S_
  h_S_ : 0 < S_.numel
  bcast_S_S2000x256 : S_.BroadcastsInDim S2000x256 (![] : Fin 0 → Fin S2000x256.rank)
  reducesTo_S2000x256_S_d0_1 : S2000x256.ReducesTo [0, 1] S_

variable [Facts]

def fn {F : FTy → Type} [FloatOps F] (main_arg0 : FVec F S8x256x4x32x32 .f32) (main_arg1 : FVec F S2000x256 .f32) : IVec S_ 1 :=
  let main_v0 : FVec F S8x256x4x32x32 .f32 := Host.absf main_arg0
  let main_cst : FVec F S_ .f32 := constant S_ .f32 0x7F800000#32
  let main_v1 : FVec F S8x256x4x32x32 .f32 := broadcastInDim S8x256x4x32x32 ![] bcast_S_S8x256x4x32x32 main_cst
  let main_v2 : IVec S8x256x4x32x32 1 := cmpf .olt main_v0 main_v1
  let main_c : IVec S_ 1 := constantI S_ 1 1#1
  let main_v3 : IVec S_ 1 := (fun x v => Host.reduce IntOp.andi x v reducesTo_S8x256x4x32x32_S_d0_1_2_3_4 h_S_) main_v2 main_c
  let main_v4 : FVec F S2000x256 .f32 := Host.absf main_arg1
  let main_cst_0 : FVec F S_ .f32 := constant S_ .f32 0x7F800000#32
  let main_v5 : FVec F S2000x256 .f32 := broadcastInDim S2000x256 ![] bcast_S_S2000x256 main_cst_0
  let main_v6 : IVec S2000x256 1 := cmpf .olt main_v4 main_v5
  let main_c_1 : IVec S_ 1 := constantI S_ 1 1#1
  let main_v7 : IVec S_ 1 := (fun x v => Host.reduce IntOp.andi x v reducesTo_S2000x256_S_d0_1 h_S_) main_v6 main_c_1
  let main_v8 : IVec S_ 1 := andi main_v3 main_v7
  main_v8
-- ==== Kernel.lean ====
abbrev S8x256x4x32x32 : Shape := ⟨5, ![8, 256, 4, 32, 32]⟩
abbrev S2000x256 : Shape := ⟨2, ![2000, 256]⟩
abbrev S8x4x32x32x256 : Shape := ⟨5, ![8, 4, 32, 32, 256]⟩
abbrev S32768x256 : Shape := ⟨2, ![32768, 256]⟩
abbrev S_ : Shape := ⟨0, ![]⟩
abbrev S2000 : Shape := ⟨1, ![2000]⟩
abbrev S2000x1 : Shape := ⟨2, ![2000, 1]⟩
abbrev S32768x2000 : Shape := ⟨2, ![32768, 2000]⟩
abbrev S512x256 : Shape := ⟨2, ![512, 256]⟩
abbrev S512x2000 : Shape := ⟨2, ![512, 2000]⟩
abbrev S512 : Shape := ⟨1, ![512]⟩
abbrev S512x1 : Shape := ⟨2, ![512, 1]⟩

abbrev nBuf : Space → Nat
  | .hbm => 18
  | .vmem => 8
  | .smem => 0
  | _ => 0

abbrev bufTy : (tb : Table) → Fin (tcTables nBuf tb) → BufTy
  | .hbm, ⟨0, _⟩ => ⟨S8x256x4x32x32, .f32⟩
  | .hbm, ⟨1, _⟩ => ⟨S2000x256, .f32⟩
  | .hbm, ⟨2, _⟩ => ⟨S8x4x32x32x256, .f32⟩
  | .hbm, ⟨3, _⟩ => ⟨S32768x256, .f32⟩
  | .hbm, ⟨4, _⟩ => ⟨S2000x256, .f32⟩
  | .hbm, ⟨5, _⟩ => ⟨S_, .f32⟩
  | .hbm, ⟨6, _⟩ => ⟨S2000, .f32⟩
  | .hbm, ⟨7, _⟩ => ⟨S2000x1, .f32⟩
  | .hbm, ⟨8, _⟩ => ⟨S2000x1, .f32⟩
  | .hbm, ⟨9, _⟩ => ⟨S_, .f32⟩
  | .hbm, ⟨10, _⟩ => ⟨S2000x1, .f32⟩
  | .hbm, ⟨11, _⟩ => ⟨S2000x1, .f32⟩
  | .hbm, ⟨12, _⟩ => ⟨S2000x256, .f32⟩
  | .hbm, ⟨13, _⟩ => ⟨S2000x256, .f32⟩
  | .hbm, ⟨14, _⟩ => ⟨S32768x2000, .f32⟩
  | .hbm, ⟨15, _⟩ => ⟨S32768x256, .f32⟩
  | .hbm, ⟨16, _⟩ => ⟨S8x4x32x32x256, .f32⟩
  | .hbm, ⟨17, _⟩ => ⟨S8x256x4x32x32, .f32⟩
  | .local _ .vmem, ⟨0, _⟩ => ⟨S512x256, .f32⟩
  | .local _ .vmem, ⟨1, _⟩ => ⟨S512x256, .f32⟩
  | .local _ .vmem, ⟨2, _⟩ => ⟨S2000x256, .f32⟩
  | .local _ .vmem, ⟨3, _⟩ => ⟨S2000x256, .f32⟩
  | .local _ .vmem, ⟨4, _⟩ => ⟨S512x2000, .f32⟩
  | .local _ .vmem, ⟨5, _⟩ => ⟨S512x2000, .f32⟩
  | .local _ .vmem, ⟨6, _⟩ => ⟨S512x256, .f32⟩
  | .local _ .vmem, ⟨7, _⟩ => ⟨S512x256, .f32⟩
  | _, _ => ⟨S8x256x4x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8x256x4x32x32_S8x4x32x32x256_0_2_3_4_1 : S8x256x4x32x32.Transposes [0, 2, 3, 4, 1] S8x4x32x32x256
  shapeCasts_S8x4x32x32x256_S32768x256 : S8x4x32x32x256.ShapeCasts S32768x256
  reducesTo_S2000x256_S2000_d1 : S2000x256.ReducesTo [1] S2000
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S512 : S512x256.Reduces [1] S512
  shapeCasts_S512_S512x1 : S512.ShapeCasts S512x1
  broadcasts_S512x1_S512x256 : S512x1.Broadcasts S512x256
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  reduces_S512x2000_S512 : S512x2000.Reduces [1] S512
  broadcasts_S512x1_S512x2000 : S512x1.Broadcasts S512x2000
  inb_S512x2000_S512x2000_0_0 : ∀ a, (![0, 0] : Fin 2 → Nat) a + S512x2000.size a ≤ S512x2000.size a
  h_S512x2000 : 0 < S512x2000.numel
  shapeCasts_S32768x256_S8x4x32x32x256 : S32768x256.ShapeCasts S8x4x32x32x256
  transposes_S8x4x32x32x256_S8x256x4x32x32_0_4_1_2_3 : S8x4x32x32x256.Transposes [0, 4, 1, 2, 3] S8x256x4x32x32
  dot_S512x256_S2000x256_S512x2000_1_1_0_0_n_n_wf : DotDims.WF S512x256 S2000x256 S512x2000 [1] [1] [0] [0] [] []
  dot_S512x2000_S2000x256_S512x256_1_0_0_1_n_n_wf : DotDims.WF S512x2000 S2000x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S32768x256.size a
  hwx0_0 : ∀ i : grid0.Coords, EltTy.bits .f32 = 32 ∨ (Rect.block (s := S32768x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S2000x256.size a
  hwx0_1 : ∀ i : grid0.Coords, EltTy.bits .f32 = 32 ∨ (Rect.block (s := S2000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S2000x256.size a
  hwx0_2 : ∀ i : grid0.Coords, EltTy.bits .f32 = 32 ∨ (Rect.block (s := S2000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2000.size a ≤ S32768x2000.size a
  hwx0_3 : ∀ i : grid0.Coords, EltTy.bits .f32 = 32 ∨ (Rect.block (s := S32768x2000) S512x2000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S32768x256.size a
  hwx0_4 : ∀ i : grid0.Coords, EltTy.bits .f32 = 32 ∨ (Rect.block (s := S32768x256) S512x256.size (cc0_transform_4 i) (hinb0_4 i)).WholeWords (EltTy.packing .f32)

variable [Facts₀]

def dot_S512x256_S2000x256_S512x2000_1_1_0_0_n_n : DotDims S512x256 S2000x256 S512x2000 where
  lhsContracting := [1]
  rhsContracting := [1]
  lhsNonContracting := [0]
  rhsNonContracting := [0]
  lhsBatch := []
  rhsBatch := []
  wf := dot_S512x256_S2000x256_S512x2000_1_1_0_0_n_n_wf
def dot_S512x2000_S2000x256_S512x256_1_0_0_1_n_n : DotDims S512x2000 S2000x256 S512x256 where
  lhsContracting := [1]
  rhsContracting := [0]
  lhsNonContracting := [0]
  rhsNonContracting := [1]
  lhsBatch := []
  rhsBatch := []
  wf := dot_S512x2000_S2000x256_S512x256_1_0_0_1_n_n_wf

abbrev win0_0 : Pipeline.Window sig grid0 :=
  Pipeline.Window.ofSpec (Memref.whole main_v1) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S512x2000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x256x4x32x32 : Shape := ⟨5, ![8, 256, 4, 32, 32]⟩
abbrev S2000x256 : Shape := ⟨2, ![2000, 256]⟩
abbrev S8x4x32x32x256 : Shape := ⟨5, ![8, 4, 32, 32, 256]⟩
abbrev S32768x256 : Shape := ⟨2, ![32768, 256]⟩
abbrev S_ : Shape := ⟨0, ![]⟩
abbrev S32768 : Shape := ⟨1, ![32768]⟩
abbrev S32768x1 : Shape := ⟨2, ![32768, 1]⟩
abbrev S2000 : Shape := ⟨1, ![2000]⟩
abbrev S2000x1 : Shape := ⟨2, ![2000, 1]⟩
abbrev S256x2000 : Shape := ⟨2, ![256, 2000]⟩
abbrev S32768x2000 : Shape := ⟨2, ![32768, 2000]⟩

abbrev nBuf : Space → Nat
  | .hbm => 64
  | .vmem => 0
  | .smem => 0
  | _ => 0

abbrev bufTy : (tb : Table) → Fin (tcTables nBuf tb) → BufTy
  | .hbm, ⟨0, _⟩ => ⟨S8x256x4x32x32, .f32⟩
  | .hbm, ⟨1, _⟩ => ⟨S2000x256, .f32⟩
  | .hbm, ⟨2, _⟩ => ⟨S8x4x32x32x256, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x256, .f32⟩
  | .hbm, ⟨13, _⟩ => ⟨S32768x256, .f32⟩
  | .hbm, ⟨14, _⟩ => ⟨S2000x256, .f32⟩
  | .hbm, ⟨15, _⟩ => ⟨S_, .f32⟩
  | .hbm, ⟨16, _⟩ => ⟨S2000, .f32⟩
  | .hbm, ⟨17, _⟩ => ⟨S2000x1, .f32⟩
  | .hbm, ⟨18, _⟩ => ⟨S2000x1, .f32⟩
  | .hbm, ⟨19, _⟩ => ⟨S_, .f32⟩
  | .hbm, ⟨20, _⟩ => ⟨S2000x1, .f32⟩
  | .hbm, ⟨21, _⟩ => ⟨S2000x1, .f32⟩
  | .hbm, ⟨22, _⟩ => ⟨S2000x256, .f32⟩
  | .hbm, ⟨23, _⟩ => ⟨S2000x256, .f32⟩
  | .hbm, ⟨24, _⟩ => ⟨S256x2000, .f32⟩
  | .hbm, ⟨25, _⟩ => ⟨S32768x2000, .f32⟩
  | .hbm, ⟨26, _⟩ => ⟨S_, .f32⟩
  | .hbm, ⟨27, _⟩ => ⟨S32768, .f32⟩
  | .hbm, ⟨28, _⟩ => ⟨S_, .f32⟩
  | .hbm, ⟨29, _⟩ => ⟨S32768, .f32⟩
  | .hbm, ⟨30, _⟩ => ⟨S32768, .f32⟩
  | .hbm, ⟨31, _⟩ => ⟨S32768x1, .f32⟩
  | .hbm, ⟨32, _⟩ => ⟨S32768x2000, .f32⟩
  | .hbm, ⟨33, _⟩ => ⟨S32768x2000, .f32⟩
  | .hbm, ⟨34, _⟩ => ⟨S32768x2000, .f32⟩
  | .hbm, ⟨35, _⟩ => ⟨S_, .f32⟩
  | .hbm, ⟨36, _⟩ => ⟨S32768, .f32⟩
  | .hbm, ⟨37, _⟩ => ⟨S32768x1, .f32⟩
  | .hbm, ⟨38, _⟩ => ⟨S32768x2000, .f32⟩
  | .hbm, ⟨39, _⟩ => ⟨S32768x2000, .f32⟩
  | .hbm, ⟨40, _⟩ => ⟨S_, .f32⟩
  | .hbm, ⟨41, _⟩ => ⟨S32768x2000, .f32⟩
  | .hbm, ⟨42, _⟩ => ⟨S32768x2000, .f32⟩
  | .hbm, ⟨43, _⟩ => ⟨S_, .f32⟩
  | .hbm, ⟨44, _⟩ => ⟨S32768x2000, .f32⟩
  | .hbm, ⟨45, _⟩ => ⟨S32768x2000, .f32⟩
  | .hbm, ⟨46, _⟩ => ⟨S32768x2000, .f32⟩
  | .hbm, ⟨47, _⟩ => ⟨S32768x2000, .f32⟩
  | .hbm, ⟨48, _⟩ => ⟨S_, .f32⟩
  | .hbm, ⟨49, _⟩ => ⟨S32768x2000, .f32⟩
  | .hbm, ⟨50, _⟩ => ⟨S32768x2000, .f32⟩
  | .hbm, ⟨51, _⟩ => ⟨S32768x2000, .f32⟩
  | .hbm, ⟨52, _⟩ => ⟨S32768x2000, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x2000, .f32⟩
  | .hbm, ⟨60, _⟩ => ⟨S32768x2000, .f32⟩
  | .hbm, ⟨61, _⟩ => ⟨S32768x256, .f32⟩
  | .hbm, ⟨62, _⟩ => ⟨S8x4x32x32x256, .f32⟩
  | .hbm, ⟨63, _⟩ => ⟨S8x256x4x32x32, .f32⟩
  | _, _ => ⟨S8x256x4x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_call2_cst : Ref sig .tc := ⟨.hbm, 43, rfl⟩
abbrev main_call2_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  transposes_S8x256x4x32x32_S8x4x32x32x256_0_2_3_4_1 : S8x256x4x32x32.Transposes [0, 2, 3, 4, 1] S8x4x32x32x256
  shapeCasts_S8x4x32x32x256_S32768x256 : S8x4x32x32x256.ShapeCasts S32768x256
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  reducesTo_S2000x256_S2000_d1 : S2000x256.ReducesTo [1] S2000
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x256_0_1 : S2000x1.BroadcastsInDim S2000x256 (![0, 1] : Fin 2 → Fin S2000x256.rank)
  transposes_S2000x256_S256x2000_1_0 : S2000x256.Transposes [1, 0] S256x2000
  reducesTo_S32768x2000_S32768_d1 : S32768x2000.ReducesTo [1] S32768
  bcast_S_S32768 : S_.BroadcastsInDim S32768 (![] : Fin 0 → Fin S32768.rank)
  bcast_S32768x1_S32768x2000_0_1 : S32768x1.BroadcastsInDim S32768x2000 (![0, 1] : Fin 2 → Fin S32768x2000.rank)
  bcast_S_S32768x2000 : S_.BroadcastsInDim S32768x2000 (![] : Fin 0 → Fin S32768x2000.rank)
  shapeCasts_S32768x256_S8x4x32x32x256 : S32768x256.ShapeCasts S8x4x32x32x256
  transposes_S8x4x32x32x256_S8x256x4x32x32_0_4_1_2_3 : S8x4x32x32x256.Transposes [0, 4, 1, 2, 3] S8x256x4x32x32
  dot_S32768x256_S256x2000_S32768x2000_1_0_0_1_n_n_wf : DotDims.WF S32768x256 S256x2000 S32768x2000 [1] [0] [0] [1] [] []
  dot_S32768x2000_S2000x256_S32768x256_1_0_0_1_n_n_wf : DotDims.WF S32768x2000 S2000x256 S32768x256 [1] [0] [0] [1] [] []

variable [Facts₀]

def dot_S32768x256_S256x2000_S32768x2000_1_0_0_1_n_n : DotDims S32768x256 S256x2000 S32768x2000 where
  lhsContracting := [1]
  rhsContracting := [0]
  lhsNonContracting := [0]
  rhsNonContracting := [1]
  lhsBatch := []
  rhsBatch := []
  wf := dot_S32768x256_S256x2000_S32768x2000_1_0_0_1_n_n_wf
def dot_S32768x2000_S2000x256_S32768x256_1_0_0_1_n_n : DotDims S32768x2000 S2000x256 S32768x256 where
  lhsContracting := [1]
  rhsContracting := [0]
  lhsNonContracting := [0]
  rhsNonContracting := [1]
  lhsBatch := []
  rhsBatch := []
  wf := dot_S32768x2000_S2000x256_S32768x256_1_0_0_1_n_n_wf

class Facts : Prop extends Facts₀ where

variable [Facts]
-- ==== Proof.LibRowOps.lean ====
/-
  General lemmas for kernels that work on a block of rows: the layout steps of a keepdims reduction
  (a vector of per-row results recast as a column, a column broadcast back along the lanes) and the
  one-axis reductions over the lane axis of a rank-2 vector, each read at a row and a lane given as
  explicit coordinates. All at any row count and lane count, so one statement serves a kernel's
  block and a whole array alike.
-/
import Idealize.ShloMosaic.PureOps.Ideal.Laws
import Idealize.ShloMosaic.Lib.ValueIdx
import Idealize.ShloMosaic.Lib.Pipeline.Value

namespace Cert.RowOps

open Idealize.ShloMosaic Idealize.ShloMosaic.ValueIdx

variable {α : Type}

/-- A vector of `n` per-row values recast as the column `[n, 1]`, read at row `r`: the value of row `r`. -/
theorem shapeCast_col_apply {n : ℕ} (v : (⟨1, ![n]⟩ : Shape).Idx → α)
    (h : (⟨1, ![n]⟩ : Shape).ShapeCasts ⟨2, ![n, 1]⟩) (r : Fin n) (u : Fin 1) :
    shapeCast ⟨2, ![n, 1]⟩ v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A column `[n, 1]` broadcast along the lanes to `[n, c]`, read at `(r, k)`: the column's entry of row `r`. -/
theorem broadcastTo_col_apply {n c : ℕ} (v : (⟨2, ![n, 1]⟩ : Shape).Idx → α)
    (h : (⟨2, ![n, 1]⟩ : Shape).Broadcasts ⟨2, ![n, c]⟩) (r : Fin n) (k : Fin c) :
    broadcastTo ⟨2, ![n, c]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    by_cases hn : n = 1
    · rw [if_pos hn]; have := r.isLt; omega
    · rw [if_neg hn]
  | ⟨1, _⟩ =>
    exact (if_pos rfl).symm

/-- The index a one-axis reduction over the lanes inserts at row `r`, lane `k`, is `(r, k)`. -/
theorem lift_lane {n c : ℕ} (h : (⟨2, ![n, c]⟩ : Shape).Reduces [1] ⟨1, ![n]⟩) (r : Fin n) (k : Fin c) :
    h.lift (ix1 r) k = ix2 r k :=
  funext fun a => Fin.ext (by
    match a with
    | ⟨0, _⟩ => rfl
    | ⟨1, _⟩ => rfl)

/-- At the ideal values the sum over the lanes of a rank-2 vector, read at row `r`, is the `Fin c`-indexed sum
    of that row's entries. -/
theorem rowSum_apply {n c : ℕ} {φ : FTy} (v : FVec Ideal ⟨2, ![n, c]⟩ φ) (acc : BitVec φ.bits)
    (h : (⟨2, ![n, c]⟩ : Shape).Reduces [1] ⟨1, ![n]⟩) (hφ : FKind.Formats φ) (hacc : acc = FKind.add.neutral φ hφ)
    (r : Fin n) :
    multiReduction .add [1] ⟨1, ![n]⟩ v acc h hφ hacc (ix1 r) = ∑ k : Fin c, v (ix2 r k) := by
  rw [Ideal.multiReduction_add_single]
  exact Finset.sum_congr rfl fun k _ => congrArg v (lift_lane h r k)

/-- At the ideal values the maximum over the lanes of a rank-2 vector, read at row `r`, is the fold of `max` from
    the accumulator's value over that row's entries. -/
theorem rowMax_apply {n c : ℕ} {φ : FTy} (v : FVec Ideal ⟨2, ![n, c]⟩ φ) (acc : BitVec φ.bits)
    (h : (⟨2, ![n, c]⟩ : Shape).Reduces [1] ⟨1, ![n]⟩) (hφ : FKind.Formats φ) (hacc : acc = FKind.maximumf.neutral φ hφ)
    (r : Fin n) :
    multiReduction .maximumf [1] ⟨1, ![n]⟩ v acc h hφ hacc (ix1 r)
      = (Finset.univ : Finset (Fin c)).fold max (Ideal.ofBits φ acc) (fun k => v (ix2 r k)) := by
  rw [Ideal.multiReduction_maximumf_single]
  exact congrArg (fun f => (Finset.univ : Finset (Fin c)).fold max (Ideal.ofBits φ acc) f)
    (funext fun k => congrArg v (lift_lane h r k))

/-- The host's one-operand reduction with a `max` body over the lanes, read at row `r` at the ideal values: the
    same fold, from the initial value's one element. -/
theorem hostRowMax_apply {n c : ℕ} {φ : FTy} {u : Shape} (x : FVec Ideal ⟨2, ![n, c]⟩ φ) (init : FVec Ideal u φ)
    (h' : (⟨2, ![n, c]⟩ : Shape).ReducesTo [1] ⟨1, ![n]⟩) (h : (⟨2, ![n, c]⟩ : Shape).Reduces [1] ⟨1, ![n]⟩)
    (hu : 0 < u.numel) (r : Fin n) :
    Host.reduce (FloatOps.maximumf (F := Ideal) (φ := φ)) x init h' hu (ix1 r)
      = (Finset.univ : Finset (Fin c)).fold max (init (Shape.Idx.first hu)) (fun k => x (ix2 r k)) := by
  rw [Host.reduce_eq_fold_single (FloatOps.maximumf (F := Ideal) (φ := φ)) x init h' h hu]
  exact congrArg (fun f => (Finset.univ : Finset (Fin c)).fold max (init (Shape.Idx.first hu)) f)
    (funext fun k => congrArg x (lift_lane h r k))

end Cert.RowOps
-- ==== Proof.Spec.lean ====
/-
  The memory read, row by row, on the extended reals.

  A feature row `x` (256 entries) is scaled to unit length (its Euclidean norm clamped below by ε), its
  inner products with the 2000 unit-length memory slots `mn` are the logits, a softmax over the slots gives
  the addressing weights, each weight `w` is hard-shrunk to `relu(w - λ) · w / (|w - λ| + δ)`, the shrunk
  weights are divided by their (clamped) absolute sum, and the result reads the raw memory `mem` as a
  weighted sum of its slots. Every operation is the exact one on the extended reals; the four constants
  are the float patterns both programs carry, left as patterns: they are never evaluated.

  Both programs compute exactly these values for every row of the flattened input, so the whole-array
  results are these row functions applied row by row (`weightsArr`, `readArr`).
-/
import Idealize.ShloMosaic.PureOps.Ideal
import Idealize.ShloMosaic.Lib.ValueIdx

noncomputable section

namespace Cert.MemRead

open Idealize.ShloMosaic Idealize.ShloMosaic.ValueIdx

/-- The Euclidean norm of a row, clamped below by the pattern of `1e-8`. -/
def cnorm (x : Fin 256 → EReal) : EReal :=
  max (Ideal.sqrt (∑ k : Fin 256, x k * x k)) (Ideal.ofBits .f32 0x322BCC77#32)

/-- The logits of a row: the inner product of the row scaled to unit length with each slot. -/
def logit (x : Fin 256 → EReal) (mn : Fin 2000 → Fin 256 → EReal) (j : Fin 2000) : EReal :=
  ∑ k : Fin 256, Ideal.div (x k) (cnorm x) * mn j k

/-- The largest of 2000 values, folded from `-∞`'s pattern. -/
def top (f : Fin 2000 → EReal) : EReal :=
  (Finset.univ : Finset (Fin 2000)).fold max (Ideal.ofBits .f32 0xFF800000#32) f

/-- The softmax over the slots, shifted by the largest logit. -/
def soft (f : Fin 2000 → EReal) (j : Fin 2000) : EReal :=
  Ideal.div (Ideal.exp (f j - top f)) (∑ j' : Fin 2000, Ideal.exp (f j' - top f))

/-- The hard shrinkage of one weight: `relu(w - λ) · w / (|w - λ| + δ)`, with `λ` the pattern of `5e-4`
    and `δ` that of `1e-15`. -/
def shrink (w : EReal) : EReal :=
  Ideal.div (max (w - Ideal.ofBits .f32 0x3A03126F#32) (Ideal.ofBits .f32 0x00000000#32) * w)
    (max (w - Ideal.ofBits .f32 0x3A03126F#32) (-(w - Ideal.ofBits .f32 0x3A03126F#32)) + Ideal.ofBits .f32 0x26901D7D#32)

/-- The absolute sum of 2000 values, clamped below by the pattern of `1e-12`. -/
def l1 (a : Fin 2000 → EReal) : EReal :=
  max (∑ j : Fin 2000, max (a j) (-(a j))) (Ideal.ofBits .f32 0x2B8CBCCC#32)

/-- From logits to the sparse addressing weights: softmax, shrink, divide by the clamped absolute sum. -/
def sparse (f : Fin 2000 → EReal) (j : Fin 2000) : EReal :=
  Ideal.div (shrink (soft f j)) (l1 fun j' => shrink (soft f j'))

/-- The addressing weights of a row. -/
def weights (x : Fin 256 → EReal) (mn : Fin 2000 → Fin 256 → EReal) : Fin 2000 → EReal :=
  sparse (logit x mn)

/-- What a row reads from memory: the weighted sum of the raw slots. -/
def readout (w : Fin 2000 → EReal) (mem : Fin 2000 → Fin 256 → EReal) (k : Fin 256) : EReal :=
  ∑ j : Fin 2000, w j * mem j k

/-- The weights of every row of an `[n, 256]` array of rows, as an `[n, 2000]` array. -/
def weightsArr {n : ℕ} (flat : (⟨2, ![n, 256]⟩ : Shape).Idx → EReal) (mn : (⟨2, ![2000, 256]⟩ : Shape).Idx → EReal) :
    (⟨2, ![n, 2000]⟩ : Shape).Idx → EReal :=
  fun i => weights (fun k => flat (ix2 (i 0) k)) (fun j k => mn (ix2 j k)) (i 1)

/-- What every row reads, as an `[n, 256]` array, from an `[n, 2000]` array of weights. -/
def readArr {n : ℕ} (w : (⟨2, ![n, 2000]⟩ : Shape).Idx → EReal) (mem : (⟨2, ![2000, 256]⟩ : Shape).Idx → EReal) :
    (⟨2, ![n, 256]⟩ : Shape).Idx → EReal :=
  fun i => readout (fun j => w (ix2 (i 0) j)) (fun j k => mem (ix2 j k)) (i 1)

end Cert.MemRead

end
-- ==== Proof.RefValue.lean ====
/-
  The reference, row by row.

  The reference computes, on the whole flattened input at once, what the specification says of each row: the clamped
  Euclidean norm of row `R`, the logits of row `R` against the unit-length slots, their maximum (a host reduction
  with a `max` body, then one more `max` with `-∞` that changes nothing), the softmax, the hard shrinkage, the clamped
  absolute sum, the division by it, and the product with the raw slots. Each stage is read at a row and a lane from
  the generated one-operation lemmas; the host's sums carry an initial `0` that is dropped.
  The flattened input `flatR` and the unit-length slots `slotsR` are left as the reference's own terms of the
  arguments: the kernel's host prefix computes the same two terms.
-/
import proofs.«130299_j25701084299676_1_alg».proof.Proof.Gen.ReferenceIdeal.Read
import proofs.«130299_j25701084299676_1_alg».proof.Proof.LibRowOps
import proofs.«130299_j25701084299676_1_alg».proof.Proof.Spec
import Idealize.ShloMosaic.PureOps.Ideal.Laws
import Idealize.ShloMosaic.Lib.ValueIdx
import Mathlib.Data.Finset.Fold

noncomputable section

namespace Cert.ReferenceIdeal.Rows

open Cert.ReferenceIdeal Cert.ReferenceIdeal.Gen Cert.ReferenceIdeal.Read Idealize.ShloMosaic Idealize.ShloMosaic.ValueIdx
open Cert.RowOps Cert.MemRead Idealize.ShloMosaic.TcCoe Idealize.SL.Sem

variable (x0 : (⟨S8x256x4x32x32, .f32⟩ : BufTy).Contents (Elt Ideal)) (x1 : (⟨S2000x256, .f32⟩ : BufTy).Contents (Elt Ideal))

/-- The reference's flattened input and unit-length slots, as terms of the arguments. -/
abbrev flatR : Vec Ideal S32768x256 .f32 := val_main_v1 (F := Ideal) x0
abbrev slotsR : Vec Ideal S2000x256 .f32 := val_main_v11 (F := Ideal) x1

/-- A rank-2 index with the given coordinates is `ix2` of them. -/
theorem idx2_eq {n0 n1 : ℕ} (i : (⟨2, ![n0, n1]⟩ : Shape).Idx) (a : Fin n0) (b : Fin n1)
    (h0 : (i 0).val = a.val) (h1 : (i 1).val = b.val) : i = ix2 a b :=
  funext fun d => Fin.ext (by
    match d with
    | ⟨0, _⟩ => exact h0
    | ⟨1, _⟩ => exact h1)
theorem idx1_eq {n : ℕ} (i : (⟨1, ![n]⟩ : Shape).Idx) (a : Fin n) (h0 : (i 0).val = a.val) : i = ix1 a :=
  funext fun d => Fin.ext (by
    match d with
    | ⟨0, _⟩ => exact h0)

/-- The host's sums start from the pattern of `0`, which adds nothing. -/
theorem zero_add_sum (s : EReal) : Ideal.ofBits .f32 0x00000000#32 + s = s := by
  rw [Ideal.ofBits_zero_f32, zero_add]

/-- One more `max` with the value a fold of `max` started from changes nothing. -/
theorem max_fold_self {ι : Type} [Fintype ι] (b : EReal) (f : ι → EReal) :
    max b ((Finset.univ : Finset ι).fold max b f) = (Finset.univ : Finset ι).fold max b f :=
  by apply max_eq_right; rw [Finset.le_fold_max]; exact Or.inl le_rfl

/-! ## The stages at a row -/

/-- The clamped norm of row `R`. -/
theorem norm_at (R : Fin 32768) (u : Fin 1) :
    val_main_v4 (F := Ideal) x0 (ix2 R u) = cnorm (fun k => flatR x0 (ix2 R k)) := by
  have hidx : ∀ k : Fin 256, idx_main_call0_v1 (idx_main_call0_v2 (ix2 R u)) k = (ix2 R k : S32768x256.Idx) :=
    fun k => idx2_eq _ _ _ rfl rfl
  rw [val_main_v4_apply, val_main_v2_apply, val_main_call0_v2_apply, val_main_call0_v1_apply, val_main_v3_apply,
    val_main_cst_apply, val_main_call0_cst_apply]
  simp only [val_main_call0_v0_apply, hidx, Ideal.ofBits_def, zero_add_sum]
  rfl

/-- The logit of row `R` against slot `j`. -/
theorem logit_at (R : Fin 32768) (j : Fin 2000) :
    val_main_v13 (F := Ideal) x0 x1 (ix2 R j) = logit (fun k => flatR x0 (ix2 R k)) (fun j k => slotsR x1 (ix2 j k)) j := by
  have hl : ∀ k : Fin 256, lidx_main_v13 (ix2 R j) k = (ix2 R k : S32768x256.Idx) := fun k => idx2_eq _ _ _ rfl rfl
  have hr : ∀ k : Fin 256, idx_main_v12 (ridx_main_v13 (ix2 R j) k) = (ix2 j k : S2000x256.Idx) := fun k => idx2_eq _ _ _ rfl rfl
  have h5 : ∀ k : Fin 256, idx_main_v5 (ix2 R k) = (ix2 R (0 : Fin 1) : S32768x1.Idx) := fun k => idx2_eq _ _ _ rfl rfl
  rw [val_main_v13_apply]
  simp only [hl, val_main_v6_apply, val_main_v5_apply, h5, norm_at, val_main_v12_apply, hr]
  rfl

/-- The largest logit of row `R`. -/
theorem top_at (R : Fin 32768) :
    val_main_v16 (F := Ideal) x0 x1 (ix1 R) = top (fun j => val_main_v13 (F := Ideal) x0 x1 (ix2 R j)) := by
  rw [val_main_v16_apply, val_main_v15_apply, val_main_cst_2_apply]
  unfold val_main_v14
  rw [hostRowMax_apply _ _ _ (by decide) _ R, val_main_cst_1_apply]
  exact max_fold_self _ _

/-- The softmax weight of row `R` on slot `j`. -/
theorem soft_at (R : Fin 32768) (j : Fin 2000) :
    val_main_v24 (F := Ideal) x0 x1 (ix2 R j) = soft (fun j => val_main_v13 (F := Ideal) x0 x1 (ix2 R j)) j := by
  have h18 : ∀ j : Fin 2000, idx_main_v17 (idx_main_v18 (ix2 R j)) = (ix1 R : S32768.Idx) := fun j => idx1_eq _ _ rfl
  have h23 : idx_main_v22 (idx_main_v23 (ix2 R j)) = (ix1 R : S32768.Idx) := idx1_eq _ _ rfl
  have h21 : ∀ j : Fin 2000, idx_main_v21 (ix1 R) j = (ix2 R j : S32768x2000.Idx) := fun j => idx2_eq _ _ _ rfl rfl
  rw [val_main_v24_apply, val_main_v23_apply, val_main_v22_apply, h23, val_main_v21_apply, val_main_cst_3_apply]
  simp only [h21, val_main_v20_apply, val_main_v19_apply, val_main_v18_apply, val_main_v17_apply, h18, top_at,
    Ideal.ofBits_def, zero_add_sum, soft, Ideal.hostDivf_def, Ideal.hostUnary_exp_def, Ideal.subf_def]

/-- The shrunk weight is the shrinkage of the softmax weight. -/
theorem shrink_at (i : S32768x2000.Idx) :
    val_main_v32 (F := Ideal) x0 x1 i = shrink (val_main_v24 (F := Ideal) x0 x1 i) := by
  rw [val_main_v32_apply, val_main_v28_apply, val_main_v27_apply, val_main_v26_apply, val_main_v25_apply, val_main_cst_4_apply,
    val_main_call2_v0_apply, val_main_call2_cst_apply, val_main_v31_apply, val_main_v29_apply, val_main_v26_apply,
    val_main_v25_apply, val_main_cst_4_apply, val_main_v30_apply, val_main_cst_5_apply]
  rfl

/-- The clamped absolute sum of row `R`'s shrunk weights. -/
theorem l1_at (R : Fin 32768) (u : Fin 1) :
    val_main_v37 (F := Ideal) x0 x1 (ix2 R u) = l1 (fun j => val_main_v32 (F := Ideal) x0 x1 (ix2 R j)) := by
  have h35 : idx_main_v35 (ix2 R u) = (ix1 R : S32768.Idx) := idx1_eq _ _ rfl
  have h34 : ∀ j : Fin 2000, idx_main_v34 (ix1 R) j = (ix2 R j : S32768x2000.Idx) := fun j => idx2_eq _ _ _ rfl rfl
  rw [val_main_v37_apply, val_main_v35_apply, h35, val_main_v34_apply, val_main_cst_6_apply, val_main_v36_apply, val_main_cst_7_apply]
  simp only [h34, val_main_v33_apply, Ideal.ofBits_def, zero_add_sum]
  rfl

/-- THE WEIGHTS: the reference's second result is `weightsArr` of its flattened input and unit-length slots. -/
theorem weights_eq : val_main_v39 (F := Ideal) x0 x1 = weightsArr (flatR x0) (slotsR x1) := by
  funext i
  obtain ⟨R, j, rfl⟩ : ∃ (R : Fin 32768) (j : Fin 2000), i = ix2 R j := ⟨i 0, i 1, eq_ix2 i⟩
  have h38 : idx_main_v38 (ix2 R j) = (ix2 R (0 : Fin 1) : S32768x1.Idx) := idx2_eq _ _ _ rfl rfl
  rw [val_main_v39_apply, val_main_v38_apply, h38, l1_at]
  simp only [shrink_at, soft_at, logit_at]
  rfl

/-- THE READ: the reference's product with the raw slots is `readArr` of its weights. -/
theorem read_eq : val_main_v40 (F := Ideal) x0 x1 = readArr (val_main_v39 (F := Ideal) x0 x1) x1 := by
  funext i
  obtain ⟨R, k, rfl⟩ : ∃ (R : Fin 32768) (k : Fin 256), i = ix2 R k := ⟨i 0, i 1, eq_ix2 i⟩
  have hl : ∀ j : Fin 2000, lidx_main_v40 (ix2 R k) j = (ix2 R j : S32768x2000.Idx) := fun j => idx2_eq _ _ _ rfl rfl
  have hr : ∀ j : Fin 2000, ridx_main_v40 (ix2 R k) j = (ix2 j k : S2000x256.Idx) := fun j => idx2_eq _ _ _ rfl rfl
  rw [val_main_v40_apply]
  simp only [hl, hr]
  rfl

/-! ## The run -/

/-- The fold back of a `[32768, 256]` array of rows to the input's layout: reshape to `[8, 4, 32, 32, 256]`, then
    the channel axis second — the last two operations of both programs. -/
def unflatten (z : Vec Ideal S32768x256 .f32) : Vec Ideal S8x256x4x32x32 .f32 :=
  transpose S8x256x4x32x32 [0, 4, 1, 2, 3] (shapeCast S8x4x32x32x256 z shapeCasts_S32768x256_S8x4x32x32x256)
    transposes_S8x4x32x32x256_S8x256x4x32x32_0_4_1_2_3

/-- The reference's first result is the read array folded back. -/
theorem out_eq : val_main_v42 (F := Ideal) x0 x1 = unflatten (readArr (weightsArr (flatR x0) (slotsR x1)) x1) := by
  show unflatten (val_main_v40 (F := Ideal) x0 x1) = _
  rw [read_eq, weights_eq]

/-- Every weakly fair execution of the reference terminates with its two results at the specification's arrays of its
    arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
        = unflatten (readArr (weightsArr (flatR (m ((c.tc : Thread nD τ).loc main_arg0))) (slotsR (m ((c.tc : Thread nD τ).loc main_arg1))))
            (m ((c.tc : Thread nD τ).loc main_arg1)))
      ∧ r.2.mem ((c.tc : Thread nD τ).loc main_v39)
        = weightsArr (flatR (m ((c.tc : Thread nD τ).loc main_arg0))) (slotsR (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((val_main_v42_eq m c).trans (out_eq _ _)),
       (h c).2.1.trans ((val_main_v39_eq m c).trans (weights_eq _ _)),
       (h c).2.2.1, (h c).2.2.2⟩)
    (Cert.ReferenceIdeal.Value.run (F := Ideal) m ρ)

end Cert.ReferenceIdeal.Rows

end
-- ==== Proof.KernelPay.lean ====
/-
  The kernel body's arithmetic, read at a row and a lane of its block.

  For a block of 512 rows `x`, the unit-length slots `mn` and the raw slots `mem`, the body's first payload — the
  value it stores in the weights window — is, at row `r` and slot `j`, the addressing weight `weights (row r of x) mn j`
  of the specification; its second payload — the value it stores in the read window — is, at row `r` and feature `k`,
  `readout` of row `r` of the first payload against `mem`. The two matrix products are plain sums over the contracted
  axis at the ideal values (the narrowing to bf16 in front of them is the identity there); the lane reductions are the
  row sums and the row maximum; everything else is pointwise.
-/
import proofs.«130299_j25701084299676_1_alg».proof.Proof.Gen.KernelIdeal.Skeleton
import proofs.«130299_j25701084299676_1_alg».proof.Proof.LibRowOps
import proofs.«130299_j25701084299676_1_alg».proof.Proof.Spec
import Idealize.ShloMosaic.PureOps.Ideal.Laws
import Idealize.ShloMosaic.Lib.ValueIdx
import Idealize.ShloMosaic.Lib.Pipeline.Value

noncomputable section

namespace Cert.KernelIdeal.Pay

open Cert.KernelIdeal Cert.KernelIdeal.Gen Idealize.ShloMosaic Idealize.ShloMosaic.ValueIdx Cert.RowOps Cert.MemRead

/-! ## The body's layout steps and lane reductions at its own shapes -/

/-- The unary vector operations read at an index. -/
theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl
theorem absf_apply {s : Shape} {φ : FTy} (a : FVec Ideal s φ) (i : s.Idx) : absf a i = max (a i) (-(a i)) := rfl

/-- Per-row values as a column. -/
theorem col_apply (v : FVec Ideal S512 .f32) (r : Fin 512) (u : Fin 1) :
    shapeCast S512x1 v shapeCasts_S512_S512x1 (ix2 r u) = v (ix1 r) :=
  shapeCast_col_apply v _ r u

/-- A column broadcast over the 256 features, and over the 2000 slots. -/
theorem bcastFeat_apply (v : FVec Ideal S512x1 .f32) (r : Fin 512) (k : Fin 256) :
    broadcastTo S512x256 v broadcasts_S512x1_S512x256 (ix2 r k) = v (ix2 r (0 : Fin 1)) :=
  broadcastTo_col_apply v _ r k
theorem bcastSlot_apply (v : FVec Ideal S512x1 .f32) (r : Fin 512) (j : Fin 2000) :
    broadcastTo S512x2000 v broadcasts_S512x1_S512x2000 (ix2 r j) = v (ix2 r (0 : Fin 1)) :=
  broadcastTo_col_apply v _ r j

/-- The row sums over the features and over the slots, and the row maximum over the slots. -/
theorem sumFeat_apply (v : FVec Ideal S512x256 .f32) (r : Fin 512) :
    multiReduction .add [1] S512 v 0x00000000#32 reduces_S512x256_S512 (.inl rfl) rfl (ix1 r) = ∑ k : Fin 256, v (ix2 r k) :=
  rowSum_apply v _ _ _ _ r
theorem sumSlot_apply (v : FVec Ideal S512x2000 .f32) (r : Fin 512) :
    multiReduction .add [1] S512 v 0x00000000#32 reduces_S512x2000_S512 (.inl rfl) rfl (ix1 r) = ∑ j : Fin 2000, v (ix2 r j) :=
  rowSum_apply v _ _ _ _ r
theorem maxSlot_apply (v : FVec Ideal S512x2000 .f32) (r : Fin 512) :
    multiReduction .maximumf [1] S512 v 0xFF800000#32 reduces_S512x2000_S512 (.inl rfl) rfl (ix1 r)
      = (Finset.univ : Finset (Fin 2000)).fold max (Ideal.ofBits .f32 0xFF800000#32) (fun j => v (ix2 r j)) :=
  rowMax_apply v _ _ _ _ r

/-! ## The product of a row block with the transposed slots -/

theorem lhs_logit_0 (i : S512x2000.Idx) (q : dot_S512x256_S2000x256_S512x2000_1_1_0_0_n_n.contr.Idx) :
    (dot_S512x256_S2000x256_S512x2000_1_1_0_0_n_n.lhsIdx i q 0).val = (i 0).val := by
  unfold DotDims.lhsIdx
  rw [dif_neg (show ¬(0 : Fin S512x256.rank) ∈ dot_S512x256_S2000x256_S512x2000_1_1_0_0_n_n.lhsBatch by decide), dif_pos (show (0 : Fin S512x256.rank) ∈ dot_S512x256_S2000x256_S512x2000_1_1_0_0_n_n.lhsNonContracting by decide)]
  rfl
theorem lhs_logit_1 (i : S512x2000.Idx) (q : dot_S512x256_S2000x256_S512x2000_1_1_0_0_n_n.contr.Idx) :
    (dot_S512x256_S2000x256_S512x2000_1_1_0_0_n_n.lhsIdx i q 1).val = (q ⟨0, by decide⟩).val :=
  dot_S512x256_S2000x256_S512x2000_1_1_0_0_n_n.lhsIdx_val_of_single rfl i q
theorem rhs_logit_0 (i : S512x2000.Idx) (q : dot_S512x256_S2000x256_S512x2000_1_1_0_0_n_n.contr.Idx) :
    (dot_S512x256_S2000x256_S512x2000_1_1_0_0_n_n.rhsIdx i q 0).val = (i 1).val := by
  unfold DotDims.rhsIdx
  rw [dif_neg (show ¬(0 : Fin S2000x256.rank) ∈ dot_S512x256_S2000x256_S512x2000_1_1_0_0_n_n.rhsBatch by decide), dif_pos (show (0 : Fin S2000x256.rank) ∈ dot_S512x256_S2000x256_S512x2000_1_1_0_0_n_n.rhsNonContracting by decide)]
  rfl
theorem rhs_logit_1 (i : S512x2000.Idx) (q : dot_S512x256_S2000x256_S512x2000_1_1_0_0_n_n.contr.Idx) :
    (dot_S512x256_S2000x256_S512x2000_1_1_0_0_n_n.rhsIdx i q 1).val = (q ⟨0, by decide⟩).val :=
  dot_S512x256_S2000x256_S512x2000_1_1_0_0_n_n.rhsIdx_val_of_single rfl i q

/-- The first product into a zero accumulator, at row `r` and slot `j`: the inner product of row `r` of the left
    operand with row `j` of the right one (both are contracted along their lanes). -/
theorem logitDot_apply (a : FVec Ideal S512x256 .bf16) (b : FVec Ideal S2000x256 .bf16) (r : Fin 512) (j : Fin 2000) :
    matmul dot_S512x256_S2000x256_S512x2000_1_1_0_0_n_n none a b (constant S512x2000 .f32 0x00000000#32) (ix2 r j)
      = ∑ k : Fin 256, a (ix2 r k) * b (ix2 j k) := by
  simp only [matmul]
  rw [Ideal.matmul_constant_zero_apply, ← Equiv.sum_comp (contrEquiv1 dot_S512x256_S2000x256_S512x2000_1_1_0_0_n_n 256 rfl rfl).symm]
  refine Finset.sum_congr rfl fun k _ => ?_
  have hk := contrEquiv1_symm_val dot_S512x256_S2000x256_S512x2000_1_1_0_0_n_n 256 rfl rfl k
  have el : dot_S512x256_S2000x256_S512x2000_1_1_0_0_n_n.lhsIdx (ix2 r j) ((contrEquiv1 dot_S512x256_S2000x256_S512x2000_1_1_0_0_n_n 256 rfl rfl).symm k) = ix2 r k := funext fun ax => Fin.ext (by
    match ax with
    | ⟨0, _⟩ => exact lhs_logit_0 _ _
    | ⟨1, _⟩ => exact (lhs_logit_1 _ _).trans hk)
  have er : dot_S512x256_S2000x256_S512x2000_1_1_0_0_n_n.rhsIdx (ix2 r j) ((contrEquiv1 dot_S512x256_S2000x256_S512x2000_1_1_0_0_n_n 256 rfl rfl).symm k) = ix2 j k := funext fun ax => Fin.ext (by
    match ax with
    | ⟨0, _⟩ => exact rhs_logit_0 _ _
    | ⟨1, _⟩ => exact (rhs_logit_1 _ _).trans hk)
  rw [el, er]

/-! ## The product of the weights with the raw slots -/

theorem lhs_read_0 (i : S512x256.Idx) (q : dot_S512x2000_S2000x256_S512x256_1_0_0_1_n_n.contr.Idx) :
    (dot_S512x2000_S2000x256_S512x256_1_0_0_1_n_n.lhsIdx i q 0).val = (i 0).val := by
  unfold DotDims.lhsIdx
  rw [dif_neg (show ¬(0 : Fin S512x2000.rank) ∈ dot_S512x2000_S2000x256_S512x256_1_0_0_1_n_n.lhsBatch by decide), dif_pos (show (0 : Fin S512x2000.rank) ∈ dot_S512x2000_S2000x256_S512x256_1_0_0_1_n_n.lhsNonContracting by decide)]
  rfl
theorem lhs_read_1 (i : S512x256.Idx) (q : dot_S512x2000_S2000x256_S512x256_1_0_0_1_n_n.contr.Idx) :
    (dot_S512x2000_S2000x256_S512x256_1_0_0_1_n_n.lhsIdx i q 1).val = (q ⟨0, by decide⟩).val :=
  dot_S512x2000_S2000x256_S512x256_1_0_0_1_n_n.lhsIdx_val_of_single rfl i q
theorem rhs_read_0 (i : S512x256.Idx) (q : dot_S512x2000_S2000x256_S512x256_1_0_0_1_n_n.contr.Idx) :
    (dot_S512x2000_S2000x256_S512x256_1_0_0_1_n_n.rhsIdx i q 0).val = (q ⟨0, by decide⟩).val :=
  dot_S512x2000_S2000x256_S512x256_1_0_0_1_n_n.rhsIdx_val_of_single rfl i q
theorem rhs_read_1 (i : S512x256.Idx) (q : dot_S512x2000_S2000x256_S512x256_1_0_0_1_n_n.contr.Idx) :
    (dot_S512x2000_S2000x256_S512x256_1_0_0_1_n_n.rhsIdx i q 1).val = (i 1).val := by
  unfold DotDims.rhsIdx
  rw [dif_neg (show ¬(1 : Fin S2000x256.rank) ∈ dot_S512x2000_S2000x256_S512x256_1_0_0_1_n_n.rhsBatch by decide), dif_pos (show (1 : Fin S2000x256.rank) ∈ dot_S512x2000_S2000x256_S512x256_1_0_0_1_n_n.rhsNonContracting by decide)]
  rfl

/-- The second product into a zero accumulator, at row `r` and feature `k`: the sum over the slots of the left
    operand's row `r` against the right operand's column `k`. -/
theorem readDot_apply (a : FVec Ideal S512x2000 .bf16) (b : FVec Ideal S2000x256 .bf16) (r : Fin 512) (k : Fin 256) :
    matmul dot_S512x2000_S2000x256_S512x256_1_0_0_1_n_n none a b (constant S512x256 .f32 0x00000000#32) (ix2 r k)
      = ∑ j : Fin 2000, a (ix2 r j) * b (ix2 j k) := by
  simp only [matmul]
  rw [Ideal.matmul_constant_zero_apply, ← Equiv.sum_comp (contrEquiv1 dot_S512x2000_S2000x256_S512x256_1_0_0_1_n_n 2000 rfl rfl).symm]
  refine Finset.sum_congr rfl fun j _ => ?_
  have hj := contrEquiv1_symm_val dot_S512x2000_S2000x256_S512x256_1_0_0_1_n_n 2000 rfl rfl j
  have el : dot_S512x2000_S2000x256_S512x256_1_0_0_1_n_n.lhsIdx (ix2 r k) ((contrEquiv1 dot_S512x2000_S2000x256_S512x256_1_0_0_1_n_n 2000 rfl rfl).symm j) = ix2 r j := funext fun ax => Fin.ext (by
    match ax with
    | ⟨0, _⟩ => exact lhs_read_0 _ _
    | ⟨1, _⟩ => exact (lhs_read_1 _ _).trans hj)
  have er : dot_S512x2000_S2000x256_S512x256_1_0_0_1_n_n.rhsIdx (ix2 r k) ((contrEquiv1 dot_S512x2000_S2000x256_S512x256_1_0_0_1_n_n 2000 rfl rfl).symm j) = ix2 j k := funext fun ax => Fin.ext (by
    match ax with
    | ⟨0, _⟩ => exact (rhs_read_0 _ _).trans hj
    | ⟨1, _⟩ => exact rhs_read_1 _ _)
  rw [el, er]

/-! ## The two payloads -/

/-- The weights payload at row `r`, slot `j`: every layout step, lane reduction and product of the body is read at
    the index, down to the entries of row `r` of `x` and of `mn`; what is left is the specification's text. -/
theorem pay2_apply (x : Vec Ideal S512x256 .f32) (mn : Vec Ideal S2000x256 .f32) (r : Fin 512) (j : Fin 2000) :
    k0_pay2 (F := Ideal) x mn (ix2 r j) = weights (fun k => x (ix2 r k)) (fun j k => mn (ix2 j k)) j := by
  unfold k0_pay2
  repeat (first
    | rw [sumFeat_apply] | rw [sumSlot_apply] | rw [maxSlot_apply]
    | simp only [shapeCast_self, divf_apply, subf_apply, addf_apply, mulf_apply, maximumf_apply, truncf_apply, broadcast_apply,
        exp_apply, sqrt_apply, absf_apply, col_apply, bcastFeat_apply, bcastSlot_apply, logitDot_apply])
  rfl

/-- The read payload at row `r`, feature `k`: the weights of row `r` against column `k` of the raw slots. -/
theorem pay1_apply (x : Vec Ideal S512x256 .f32) (mn mem : Vec Ideal S2000x256 .f32) (r : Fin 512) (k : Fin 256) :
    k0_pay1 (F := Ideal) (k0_pay3 x mn) mem (ix2 r k)
      = readout (fun j => k0_pay2 (F := Ideal) x mn (ix2 r j)) (fun j k => mem (ix2 j k)) k := by
  unfold k0_pay1 k0_pay3
  simp only [readDot_apply, truncf_apply]
  rfl

end Cert.KernelIdeal.Pay

end
-- ==== Proof.KernelBlocks.lean ====
/-
  From the body's blocks to the two result arrays of the region.

  Grid point `t` (of 64) stages rows `512 t … 512 t + 511` of the flattened input `flat`, the whole of the unit-length
  slots `mn` and the whole of the raw slots `mem`, and writes back rows `512 t … 512 t + 511` of the weights array and
  of the read array. What it writes back is the row functions of the specification applied to its own rows, so the
  write-back of point `t` is block `t` of `weightsArr flat mn`, respectively of `readArr (weightsArr flat mn) mem`; the
  64 blocks tile each array (row `R` is point `R / 512`'s), so after the run the arrays ARE those functions.
-/
import proofs.«130299_j25701084299676_1_alg».proof.Proof.Gen.KernelIdeal.Frame
import proofs.«130299_j25701084299676_1_alg».proof.Proof.KernelPay
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pay Idealize.ShloMosaic.ValueIdx Cert.MemRead

variable (m : (ℓ : Loc nD τ sig) → Buf (Elt Ideal) ℓ) (ρ : Dev nD → PrngReg)

theorem hz : (![0, 0] : Fin 2 → Nat) = fun _ => 0 := funext fun a => by fin_cases a <;> rfl

/-- The flattened input, the unit-length slots and the raw slots as the region finds them. -/
abbrev flat (c : Dev nD) : Vec Ideal S32768x256 .f32 := V m c main_v1
abbrev slots (c : Dev nD) : Vec Ideal S2000x256 .f32 := V m c main_v6
abbrev raw (c : Dev nD) : Vec Ideal S2000x256 .f32 := V m c main_arg1

/-- The block index of every window at every point: the row windows (0, 3, 4) are at block `t` of the rows, the
    two slot windows stay at the one block that is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The input blocks as rows of the arrays -/

/-- Row `p` of point `t`'s input block is row `512 t + p` of `flat`. -/
theorem flatBlk_apply (c : Dev nD) (t : Fin cfg0.N) (p : Fin 512) (k : Fin 256) (R : Fin 32768)
    (hR : R.val = 512 * t.val + p.val) :
    (iblk m c 0 t : Vec Ideal S512x256 .f32) (ix2 p k) = flat m c (ix2 R k) := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 512 + 1 * p.val = R.val; rw [e0, hR]; omega
  | ⟨1, _⟩ => show win0_0.index t (1 : Fin 2) * 256 + 1 * k.val = k.val; rw [e1]; omega

/-- The unit-length slots' block is the whole array at every point. -/
theorem slotsBlk_apply (c : Dev nD) (t : Fin cfg0.N) (j : Fin 2000) (k : Fin 256) :
    (iblk m c 1 t : Vec Ideal S2000x256 .f32) (ix2 j k) = slots m c (ix2 j k) := by
  obtain ⟨-, -, e0, e1, -⟩ := idx_facts t
  unfold iblk
  rw [View.read_apply]
  show V m c main_v6 _ = V m c main_v6 _
  congr 1
  funext a
  apply Fin.ext
  match a with
  | ⟨0, _⟩ => show win0_1.index t (0 : Fin 2) * 2000 + 1 * j.val = j.val; rw [e0]; omega
  | ⟨1, _⟩ => show win0_1.index t (1 : Fin 2) * 256 + 1 * k.val = k.val; rw [e1]; omega

/-- So is the raw slots'. -/
theorem rawBlk_apply (c : Dev nD) (t : Fin cfg0.N) (j : Fin 2000) (k : Fin 256) :
    (iblk m c 2 t : Vec Ideal S2000x256 .f32) (ix2 j k) = raw m c (ix2 j k) := by
  obtain ⟨-, -, -, -, e0, e1, -⟩ := idx_facts t
  unfold iblk
  rw [View.read_apply]
  show V m c main_arg1 _ = V m c main_arg1 _
  congr 1
  funext a
  apply Fin.ext
  match a with
  | ⟨0, _⟩ => show win0_2.index t (0 : Fin 2) * 2000 + 1 * j.val = j.val; rw [e0]; omega
  | ⟨1, _⟩ => show win0_2.index t (1 : Fin 2) * 256 + 1 * k.val = k.val; rw [e1]; omega

/-! ## What a point writes back -/

/-- Row `p`, slot `q` of point `t`'s block of the weights array is row `512 t + p`, slot `q`. -/
theorem embW (t : Fin cfg0.N) (p : Fin 512) (q : Fin 2000) (R : Fin 32768) (hR : R.val = 512 * t.val + p.val) :
    ((cfg0.win 3).blk t).view.emb (ix2 p q) = (ix2 R q : S32768x2000.Idx) := by
  obtain ⟨-, -, -, -, -, -, e0, e1, -⟩ := idx_facts t
  funext a
  apply Fin.ext
  match a with
  | ⟨0, _⟩ => show win0_3.index t (0 : Fin 2) * 512 + 1 * p.val = R.val; rw [e0, hR]; omega
  | ⟨1, _⟩ => show win0_3.index t (1 : Fin 2) * 2000 + 1 * q.val = q.val; rw [e1]; omega

/-- Row `p`, feature `k` of point `t`'s block of the read array is row `512 t + p`, feature `k`. -/
theorem embZ (t : Fin cfg0.N) (p : Fin 512) (k : Fin 256) (R : Fin 32768) (hR : R.val = 512 * t.val + p.val) :
    ((cfg0.win 4).blk t).view.emb (ix2 p k) = (ix2 R k : S32768x256.Idx) := by
  obtain ⟨-, -, -, -, -, -, -, -, e0, e1⟩ := idx_facts t
  funext a
  apply Fin.ext
  match a with
  | ⟨0, _⟩ => show win0_4.index t (0 : Fin 2) * 512 + 1 * p.val = R.val; rw [e0, hR]; omega
  | ⟨1, _⟩ => show win0_4.index t (1 : Fin 2) * 256 + 1 * k.val = k.val; rw [e1]; omega

/-- The row of `flat` that row `p` of point `t` is. -/
abbrev rowOf (t : Fin cfg0.N) (p : Fin 512) : Fin 32768 :=
  ⟨512 * t.val + p.val, by have ht : t.val < 64 := lt_of_lt_of_eq t.isLt N_0; have := p.isLt; omega⟩

/-- The weights payload of point `t`'s blocks, at row `p` and slot `q`: the weight of row `512 t + p` of `flat`. -/
theorem payW_at (c : Dev nD) (t : Fin cfg0.N) (p : Fin 512) (q : Fin 2000) :
    k0_pay2 (F := Ideal) (iblk m c 0 t) (iblk m c 1 t) (ix2 p q)
      = weightsArr (flat m c) (slots m c) (ix2 (rowOf t p) q) := by
  refine (pay2_apply (iblk m c 0 t) (iblk m c 1 t) p q).trans ?_
  exact congrArg₂ (fun a b => weights a b q)
    (funext fun k => flatBlk_apply m c t p k (rowOf t p) rfl)
    (funext fun j => funext fun k => slotsBlk_apply m c t j k)

/-- WHAT POINT `t` WRITES BACK to the weights array is block `t` of `weightsArr flat slots`. -/
theorem flushedW_eq (c : Dev nD) (t : Fin cfg0.N) :
    (dats m 0 c).flushed 3 t = ((cfg0.win 3).blk t).view.read (Elt Ideal) (weightsArr (flat m c) (slots m c)) := by
  show (cfg0.win 3).cut (grid0.coords t) ((dats m 0 c).after 3 t) = _
  rw [after0_3]
  unfold out0_3
  rw [View.canon_unit_zero hz]
  simp only [View.ld_unit_zero (S := S512x256) hz, View.ld_unit_zero (S := S2000x256) hz]
  show (k0_pay2 (F := Ideal) (iblk m c 0 t) (iblk m c 1 t) : Vec Ideal S512x2000 .f32)
    = fun y : S512x2000.Idx => weightsArr (flat m c) (slots m c) (((cfg0.win 3).blk t).view.emb y)
  funext y
  obtain ⟨p, q, rfl⟩ : ∃ (p : Fin 512) (q : Fin 2000), y = ix2 p q := ⟨y 0, y 1, eq_ix2 y⟩
  rw [embW t p q (rowOf t p) rfl]
  exact payW_at m c t p q

/-- WHAT POINT `t` WRITES BACK to the read array is block `t` of `readArr (weightsArr flat slots) raw`. -/
theorem flushedZ_eq (c : Dev nD) (t : Fin cfg0.N) :
    (dats m 0 c).flushed 4 t
      = ((cfg0.win 4).blk t).view.read (Elt Ideal) (readArr (weightsArr (flat m c) (slots m c)) (raw m c)) := by
  show (cfg0.win 4).cut (grid0.coords t) ((dats m 0 c).after 4 t) = _
  rw [after0_4]
  unfold out0_4
  rw [View.canon_unit_zero hz]
  simp only [View.ld_unit_zero (S := S512x256) hz, View.ld_unit_zero (S := S2000x256) hz]
  show (k0_pay1 (F := Ideal) (k0_pay3 (iblk m c 0 t) (iblk m c 1 t)) (iblk m c 2 t) : Vec Ideal S512x256 .f32)
    = fun y : S512x256.Idx => readArr (weightsArr (flat m c) (slots m c)) (raw m c) (((cfg0.win 4).blk t).view.emb y)
  funext y
  obtain ⟨p, k, rfl⟩ : ∃ (p : Fin 512) (k : Fin 256), y = ix2 p k := ⟨y 0, y 1, eq_ix2 y⟩
  rw [embZ t p k (rowOf t p) rfl]
  refine (pay1_apply (iblk m c 0 t) (iblk m c 1 t) (iblk m c 2 t) p k).trans ?_
  exact congrArg₂ (fun a b => readout a b k)
    (funext fun j => payW_at m c t p j)
    (funext fun j => funext fun k => rawBlk_apply m c t j k)

/-! ## The blocks tile the arrays -/

/-- An index of the weights array is in point `t`'s block iff each coordinate is in the block's range on its axis. -/
theorem mem_blkW (t : Fin cfg0.N) (i : S32768x2000.Idx) :
    i ∈ ((cfg0.win 3).blk t).view.set ↔ ∀ a : Fin 2, win0_3.index t a * S512x2000.size a ≤ (i a).val ∧ (i a).val < win0_3.index t a * S512x2000.size a + S512x2000.size a := by
  show i ∈ ((View.whole main_v7_0).slice (win0_3.rect t)).set ↔ _
  rw [View.set_slice_whole, Rect.mem_set_unit]
  exact Iff.rfl

theorem mem_blkZ (t : Fin cfg0.N) (i : S32768x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v7_1).slice (win0_4.rect t)).set ↔ _
  rw [View.set_slice_whole, Rect.mem_set_unit]
  exact Iff.rfl

/-- The point whose block holds row `R`. -/
abbrev pointOf (R : Nat) (hR : R < 32768) : Fin cfg0.N := ⟨R / 512, by rw [show cfg0.N = 64 from N_0]; omega⟩

theorem coverW (i : S32768x2000.Idx) : ∃ t : Fin cfg0.N, (cfg0.win 3).flush t = true ∧ i ∈ ((cfg0.win 3).blk t).view.set := by
  have hi0 : (i 0).val < 32768 := (i 0).isLt
  have hi1 : (i 1).val < 2000 := (i 1).isLt
  refine ⟨pointOf (i 0).val hi0, flush0_3 _, ?_⟩
  obtain ⟨-, -, -, -, -, -, e0, e1, -⟩ := idx_facts (pointOf (i 0).val hi0)
  rw [mem_blkW]
  intro a
  match a with
  | ⟨0, _⟩ =>
    show win0_3.index (pointOf (i 0).val hi0) (0 : Fin 2) * 512 ≤ (i 0).val ∧ (i 0).val < win0_3.index (pointOf (i 0).val hi0) (0 : Fin 2) * 512 + 512
    rw [e0]; show (i 0).val / 512 * 512 ≤ (i 0).val ∧ (i 0).val < (i 0).val / 512 * 512 + 512; omega
  | ⟨1, _⟩ =>
    show win0_3.index (pointOf (i 0).val hi0) (1 : Fin 2) * 2000 ≤ (i 1).val ∧ (i 1).val < win0_3.index (pointOf (i 0).val hi0) (1 : Fin 2) * 2000 + 2000
    rw [e1]; omega

theorem coverZ (i : S32768x256.Idx) : ∃ t : Fin cfg0.N, (cfg0.win 4).flush t = true ∧ i ∈ ((cfg0.win 4).blk t).view.set := by
  have hi0 : (i 0).val < 32768 := (i 0).isLt
  have hi1 : (i 1).val < 256 := (i 1).isLt
  refine ⟨pointOf (i 0).val hi0, flush0_4 _, ?_⟩
  obtain ⟨-, -, -, -, -, -, -, -, e0, e1⟩ := idx_facts (pointOf (i 0).val hi0)
  rw [mem_blkZ]
  intro a
  match a with
  | ⟨0, _⟩ =>
    show win0_4.index (pointOf (i 0).val hi0) (0 : Fin 2) * 512 ≤ (i 0).val ∧ (i 0).val < win0_4.index (pointOf (i 0).val hi0) (0 : Fin 2) * 512 + 512
    rw [e0]; show (i 0).val / 512 * 512 ≤ (i 0).val ∧ (i 0).val < (i 0).val / 512 * 512 + 512; omega
  | ⟨1, _⟩ =>
    show win0_4.index (pointOf (i 0).val hi0) (1 : Fin 2) * 256 ≤ (i 1).val ∧ (i 1).val < win0_4.index (pointOf (i 0).val hi0) (1 : Fin 2) * 256 + 256
    rw [e1]; omega

/-! ## The two arrays after the region -/

theorem finalW (c : Dev nD) : (dats m 0 c).arrAt 3 cfg0.N = weightsArr (flat m c) (slots m c) :=
  (dats m 0 c).arrAt_eq_of_cover 3 (weightsArr (flat m c) (slots m c)) (fun t _ => flushedW_eq m c t) coverW

theorem finalZ (c : Dev nD) :
    (dats m 0 c).arrAt 4 cfg0.N = readArr (weightsArr (flat m c) (slots m c)) (raw m c) :=
  (dats m 0 c).arrAt_eq_of_cover 4 (readArr (weightsArr (flat m c) (slots m c)) (raw m c)) (fun t _ => flushedZ_eq m c t) coverZ

end Cert.KernelIdeal.Blocks

end
-- ==== Proof.KernelHost.lean ====
/-
  The host operations around the region, on the kernel's side.

  Before the region the program transposes the input's channel axis last and flattens it to `[32768, 256]` rows, and
  divides each memory slot by its clamped Euclidean norm: the same two terms of the arguments the reference computes
  for itself (`val_main_v1`, `val_main_v11`). After the region it folds the read array back to
  `[8, 4, 32, 32, 256]` and moves the channel axis to second place (`unflatten`, the reference's last two
  operations). The weights array is a result as it stands.
-/
import proofs.«130299_j25701084299676_1_alg».proof.Proof.Gen.KernelIdeal.Frame
import proofs.«130299_j25701084299676_1_alg».proof.Proof.RefValue
import proofs.«130299_j25701084299676_1_alg».proof.Proof.KernelBlocks
import Idealize.ShloMosaic.Lib.StableHlo.Run
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Host

open Cert.KernelIdeal Cert.KernelIdeal.Gen Cert.KernelIdeal.Blocks Idealize.ShloMosaic.ValueIdx Cert.MemRead
open Cert.ReferenceIdeal.Rows (unflatten flatR slotsR)

variable (m : (ℓ : Loc nD τ sig) → Buf (Elt Ideal) ℓ) (ρ : Dev nD → PrngReg)

/-- The region finds the flattened input at the reference's own term of the first argument. -/
theorem flat_eq (c : Dev nD) :
    flat m c = flatR (m ((c : Thread nD τ).loc main_arg0)) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append,
    List.nil_append]
  after_results
  rfl

/-- And the unit-length slots at the reference's own term of the second argument. -/
theorem slots_eq (c : Dev nD) :
    slots m c = slotsR (m ((c : Thread nD τ).loc main_arg1)) := by
  show StableHlo.after (List.flatten [hostOps0, hostOps0_1, hostOps0_2]) (fun b => m (c, b)) (Proc.devRef .tc main_v6) = _
  simp only [hostOps0, hostOps0_1, hostOps0_2, List.flatten_cons, List.flatten_nil, List.append_nil, List.cons_append,
    List.nil_append]
  after_results
  rfl

/-- The raw slots are the second argument as launched. -/
theorem raw_eq (c : Dev nD) : raw m c = m ((c : Thread nD τ).loc main_arg1) := V_main_arg1 m c

/-- The first result after the host tail: the read array folded back. -/
theorem tail_eq (c : Dev nD) :
    Pipeline.afterTail₀ cfgs (dats m) 0 (V0 m) [hostOps1] c main_v9 = unflatten ((dats m 0 c).arrAt 4 cfg0.N) := by
  unfold Pipeline.afterTail₀
  show StableHlo.after hostOps1 _ (Proc.devRef .tc main_v9) = _
  after_results
  rw [Pipeline.withArrays_arr spec0 launch0.win.arr_inj c _ _ 4]
  rfl

/-! ## The run -/

/-- Every weakly fair execution of the kernel's program terminates with its two results at the specification's arrays
    of its arguments — the weights array as the region leaves it, the read array folded back by the host tail — and
    the arguments unchanged. -/
theorem run : θ_run defs (onTc (τ := τ) (main (F := Ideal))) ⟨m, fun _ => 0, ρ⟩ fun r => ∀ c : Dev nD,
      r.2.mem ((c.tc : Thread nD τ).loc main_v9)
        = unflatten (readArr (weightsArr (flatR (m ((c.tc : Thread nD τ).loc main_arg0))) (slotsR (m ((c.tc : Thread nD τ).loc main_arg1))))
            (m ((c.tc : Thread nD τ).loc main_arg1)))
      ∧ r.2.mem ((c.tc : Thread nD τ).loc main_v7_0)
        = weightsArr (flatR (m ((c.tc : Thread nD τ).loc main_arg0))) (slotsR (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 (Pipeline.mem_restRefs_of main_v9 (by decide) (by decide))).trans
          ((tail_eq m c).trans (by rw [finalZ, flat_eq, slots_eq, raw_eq])),
       ((h c).1 3).trans ((finalW m c).trans (by rw [flat_eq, slots_eq])),
       ((h c).2 main_arg0 (Pipeline.mem_restRefs_of main_arg0 (by decide) (by decide))).trans (W_main_arg0 m (dats m) c),
       ((h c).1 2).trans (((dats m 0 c).arrAt_in 2 rfl _).trans ((A_eq m c 2).trans (V_main_arg1 m c)))⟩)
    (run_main m ρ)

end Cert.KernelIdeal.Host

end
-- ==== Proof.lean ====
/-
  Memory read by cosine addressing: the kernel against its reference, over the extended reals.

  Both programs flatten the input to 32768 rows of 256 features, scale every memory slot to unit length, and for each
  row compute the same thing: the row scaled to unit length, its inner products with the unit-length slots, a softmax
  over the 2000 slots, the hard shrinkage `relu(w - λ) · w / (|w - λ| + δ)` of each weight, the division by the
  clamped absolute sum, and the weighted sum of the raw slots; the read array is then folded back to the input's
  layout. The kernel does this for 512 rows at a grid point, its two matrix products taking operands narrowed to
  bf16, which at the ideal values is the identity; the reference does it for all rows at once. The specification
  (Proof/Spec.lean) states the per-row functions once; the kernel's payloads are those functions of its block's rows
  (Proof/KernelPay.lean), the 64 blocks tile the two result arrays (Proof/KernelBlocks.lean), the host operations
  around the region are the reference's own (Proof/KernelHost.lean), and the reference's stages are the same
  functions row by row (Proof/RefValue.lean). No law of the extended reals is needed beyond reading both texts at an
  index: every constant is the same float pattern on both sides and is never evaluated, and the only rearrangements
  are a sum's initial zero and one extra `max` with `-∞`.
  The idealization rewrote nothing, so `preserves` is trivial; the three frames are the generated ones (the
  reference's is its run with the results dropped).
-/
import proofs.«130299_j25701084299676_1_alg».proof.Defs
import proofs.«130299_j25701084299676_1_alg».proof.Proof.Gen.Kernel
import proofs.«130299_j25701084299676_1_alg».proof.Proof.Gen.Kernel.Skeleton
import proofs.«130299_j25701084299676_1_alg».proof.Proof.Gen.Kernel.Launch
import proofs.«130299_j25701084299676_1_alg».proof.Proof.Gen.Kernel.Points
import proofs.«130299_j25701084299676_1_alg».proof.Proof.Gen.Kernel.Frame
import proofs.«130299_j25701084299676_1_alg».proof.Proof.Gen.KernelIdeal
import proofs.«130299_j25701084299676_1_alg».proof.Proof.Gen.KernelIdeal.Skeleton
import proofs.«130299_j25701084299676_1_alg».proof.Proof.Gen.KernelIdeal.Launch
import proofs.«130299_j25701084299676_1_alg».proof.Proof.Gen.KernelIdeal.Points
import proofs.«130299_j25701084299676_1_alg».proof.Proof.Gen.KernelIdeal.Frame
import proofs.«130299_j25701084299676_1_alg».proof.Proof.Gen.ReferenceIdeal
import proofs.«130299_j25701084299676_1_alg».proof.Proof.Gen.Pre_finite_inputs
import proofs.«130299_j25701084299676_1_alg».proof.Proof.Gen.ReferenceIdeal.Run
import proofs.«130299_j25701084299676_1_alg».proof.Proof.Gen.ReferenceIdeal.Read
import proofs.«130299_j25701084299676_1_alg».proof.Proof.RefValue
import proofs.«130299_j25701084299676_1_alg».proof.Proof.KernelHost
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Both programs end with the read array folded back and the weights array, each at the specification's function of
    the arguments; the arguments agree, so the results are equal. -/
theorem algebraic : Cert.algebraic_KernelIdeal_ReferenceIdeal := by
  intro m ρ m' ρ' _ hagree
  refine ⟨_, _, Cert.KernelIdeal.Host.run m ρ, ?_⟩
  refine (θ_run Cert.ReferenceIdeal.defs _ _).mono (fun _ h c => ⟨(h c).1.trans ?_, (h c).2.1.trans ?_, (h c).2.2.1, (h c).2.2.2⟩)
    (Cert.ReferenceIdeal.Rows.run m' ρ')
  · rw [(hagree c).1, (hagree c).2]
  · rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
